-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S256x512 : Shape := ⟨2, ![256, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512x1 .f32) (main_arg5 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1 .f32 := Host.absf main_arg4
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S512x128 .f32) (main_arg1 : FVec F S512x128 .f32) (main_arg2 : FVec F S256x512 .f32) (main_arg3 : FVec F S512 .f32) (main_arg4 : FVec F S512x1 .f32) (main_arg5 : FVec F S1 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S512x128 : Shape := ⟨2, ![512, 128]⟩
abbrev S256x512 : Shape := ⟨2, ![256, 512]⟩
abbrev S512 : Shape := ⟨1, ![512]⟩
abbrev S512x1 : Shape := ⟨2, ![512, 1]⟩
abbrev S1 : Shape := ⟨1, ![1]⟩
abbrev S128x512 : Shape := ⟨2, ![128, 512]⟩
abbrev S1x512 : Shape := ⟨2, ![1, 512]⟩
abbrev S1x1 : Shape := ⟨2, ![1, 1]⟩
abbrev S512x512 : Shape := ⟨2, ![512, 512]⟩
abbrev S32x512 : Shape := ⟨2, ![32, 512]⟩
abbrev S32x128 : Shape := ⟨2, ![32, 128]⟩
abbrev S32x1x512 : Shape := ⟨3, ![32, 1, 512]⟩
abbrev S1x128x512 : Shape := ⟨3, ![1, 128, 512]⟩
abbrev S32x128x512 : Shape := ⟨3, ![32, 128, 512]⟩
abbrev S1x1x512 : Shape := ⟨3, ![1, 1, 512]⟩
abbrev S4096x512 : Shape := ⟨2, ![4096, 512]⟩
abbrev S4096x1 : Shape := ⟨2, ![4096, 1]⟩

abbrev nBuf : Space → Nat
  | .hbm => 13
  | .vmem => 15
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S256x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S128x512, .f32⟩
  | .hbm, ⟨7, _⟩ => ⟨S128x512, .f32⟩
  | .hbm, ⟨8, _⟩ => ⟨S1x512, .f32⟩
  | .hbm, ⟨9, _⟩ => ⟨S1x1, .f32⟩
  | .hbm, ⟨10, _⟩ => ⟨S512x512, .f32⟩
  | .hbm, ⟨11, _⟩ => ⟨S512x512, .f32⟩
  | .hbm, ⟨12, _⟩ => ⟨S512x512, .f32⟩
  | .local _ .vmem, ⟨0, _⟩ => ⟨S512x128, .f32⟩
  | .local _ .vmem, ⟨1, _⟩ => ⟨S512x128, .f32⟩
  | .local _ .vmem, ⟨2, _⟩ => ⟨S128x512, .f32⟩
  | .local _ .vmem, ⟨3, _⟩ => ⟨S128x512, .f32⟩
  | .local _ .vmem, ⟨4, _⟩ => ⟨S512x512, .f32⟩
  | .local _ .vmem, ⟨5, _⟩ => ⟨S512x512, .f32⟩
  | .local _ .vmem, ⟨6, _⟩ => ⟨S32x512, .f32⟩
  | .local _ .vmem, ⟨7, _⟩ => ⟨S32x512, .f32⟩
  | .local _ .vmem, ⟨8, _⟩ => ⟨S128x512, .f32⟩
  | .local _ .vmem, ⟨9, _⟩ => ⟨S128x512, .f32⟩
  | .local _ .vmem, ⟨10, _⟩ => ⟨S1x512, .f32⟩
  | .local _ .vmem, ⟨11, _⟩ => ⟨S512x1, .f32⟩
  | .local _ .vmem, ⟨12, _⟩ => ⟨S1x1, .f32⟩
  | .local _ .vmem, ⟨13, _⟩ => ⟨S32x128, .f32⟩
  | .local _ .vmem, ⟨14, _⟩ => ⟨S32x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S32x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S256x512_S128x512_0_0 : S256x512.Slices ![0, 0] S128x512
  slices_S256x512_S128x512_128_0 : S256x512.Slices ![128, 0] S128x512
  shapeCasts_S512_S1x512 : S512.ShapeCasts S1x512
  shapeCasts_S1_S1x1 : S1.ShapeCasts S1x1
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x512_S512x512_0_0 : ∀ a, (![0, 0] : Fin 2 → Nat) a + S512x512.size a ≤ S512x512.size a
  h_S512x512 : 0 < S512x512.numel
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  shapeCasts_S1x512_S1x1x512 : S1x512.ShapeCasts S1x1x512
  broadcasts_S1x1x512_S32x128x512 : S1x1x512.Broadcasts S32x128x512
  shapeCasts_S32x128x512_S4096x512 : S32x128x512.ShapeCasts S4096x512
  inb_S512x1_S512x1_0_0 : ∀ a, (![0, 0] : Fin 2 → Nat) a + S512x1.size a ≤ S512x1.size a
  h_S512x1 : 0 < S512x1.numel
  shapeCasts_S4096x1_S32x128 : S4096x1.ShapeCasts S32x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32x128 : S1x1.Broadcasts S32x128
  inb_S32x128_S32x128_0_0 : ∀ a, (![0, 0] : Fin 2 → Nat) a + S32x128.size a ≤ S32x128.size a
  h_S32x128 : 0 < S32x128.numel
  dot_S512x128_S128x512_S512x512_1_0_0_1_n_n_wf : DotDims.WF S512x128 S128x512 S512x512 [1] [0] [0] [1] [] []
  dot_S4096x512_S512x1_S4096x1_1_0_0_1_n_n_wf : DotDims.WF S4096x512 S512x1 S4096x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x512.size a ≤ S512x512.size a
  hwx1_0 : ∀ i : grid1.Coords, EltTy.bits .f32 = 32 ∨ (Rect.block (s := S512x512) S32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S512x512.size a
  hwx1_1 : ∀ i : grid1.Coords, EltTy.bits .f32 = 32 ∨ (Rect.block (s := S512x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S512x1.size a
  hwx1_3 : ∀ i : grid1.Coords, EltTy.bits .f32 = 32 ∨ (Rect.block (s := S512x1) S512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x128.size a ≤ S512x512.size a
  hwx1_5 : ∀ i : grid1.Coords, EltTy.bits .f32 = 32 ∨ (Rect.block (s := S512x512) S32x128.size (cc1_transform_5 i) (hinb1_5 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

abbrev win0_0 : Pipeline.Window sig grid0 :=
  Pipeline.Window.ofSpec (Memref.whole main_arg0) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_0) S32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S32x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S512x128 : Shape := ⟨2, ![512, 128]⟩
abbrev S256x512 : Shape := ⟨2, ![256, 512]⟩
abbrev S512 : Shape := ⟨1, ![512]⟩
abbrev S512x1 : Shape := ⟨2, ![512, 1]⟩
abbrev S1 : Shape := ⟨1, ![1]⟩
abbrev S1x512x128 : Shape := ⟨3, ![1, 512, 128]⟩
abbrev S512x512x128 : Shape := ⟨3, ![512, 512, 128]⟩
abbrev S512x1x128 : Shape := ⟨3, ![512, 1, 128]⟩
abbrev S512x512x256 : Shape := ⟨3, ![512, 512, 256]⟩
abbrev S262144x256 : Shape := ⟨2, ![262144, 256]⟩
abbrev S262144x512 : Shape := ⟨2, ![262144, 512]⟩
abbrev S1x512 : Shape := ⟨2, ![1, 512]⟩
abbrev S_ : Shape := ⟨0, ![]⟩
abbrev S262144x1 : Shape := ⟨2, ![262144, 1]⟩
abbrev S1x1 : Shape := ⟨2, ![1, 1]⟩
abbrev S512x512 : Shape := ⟨2, ![512, 512]⟩

abbrev nBuf : Space → Nat
  | .hbm => 25
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S256x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S1x512x128, .f32⟩
  | .hbm, ⟨7, _⟩ => ⟨S512x512x128, .f32⟩
  | .hbm, ⟨8, _⟩ => ⟨S512x1x128, .f32⟩
  | .hbm, ⟨9, _⟩ => ⟨S512x512x128, .f32⟩
  | .hbm, ⟨10, _⟩ => ⟨S512x512x256, .f32⟩
  | .hbm, ⟨11, _⟩ => ⟨S262144x256, .f32⟩
  | .hbm, ⟨12, _⟩ => ⟨S262144x512, .f32⟩
  | .hbm, ⟨13, _⟩ => ⟨S1x512, .f32⟩
  | .hbm, ⟨14, _⟩ => ⟨S262144x512, .f32⟩
  | .hbm, ⟨15, _⟩ => ⟨S262144x512, .f32⟩
  | .hbm, ⟨16, _⟩ => ⟨S_, .f32⟩
  | .hbm, ⟨17, _⟩ => ⟨S262144x512, .f32⟩
  | .hbm, ⟨18, _⟩ => ⟨S262144x512, .f32⟩
  | .hbm, ⟨19, _⟩ => ⟨S262144x1, .f32⟩
  | .hbm, ⟨20, _⟩ => ⟨S1x1, .f32⟩
  | .hbm, ⟨21, _⟩ => ⟨S262144x1, .f32⟩
  | .hbm, ⟨22, _⟩ => ⟨S262144x1, .f32⟩
  | .hbm, ⟨23, _⟩ => ⟨S512x512, .f32⟩
  | .hbm, ⟨24, _⟩ => ⟨S512x512, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S512x128_S1x512x128_1_2 : S512x128.BroadcastsInDim S1x512x128 (![1, 2] : Fin 2 → Fin S1x512x128.rank)
  bcast_S1x512x128_S512x512x128_0_1_2 : S1x512x128.BroadcastsInDim S512x512x128 (![0, 1, 2] : Fin 3 → Fin S512x512x128.rank)
  bcast_S512x128_S512x1x128_0_2 : S512x128.BroadcastsInDim S512x1x128 (![0, 2] : Fin 2 → Fin S512x1x128.rank)
  bcast_S512x1x128_S512x512x128_0_1_2 : S512x1x128.BroadcastsInDim S512x512x128 (![0, 1, 2] : Fin 3 → Fin S512x512x128.rank)
  concatenates_S512x512x128_S512x512x128_S512x512x256_d2 : Shape.Concatenates [S512x512x128, S512x512x128] S512x512x256 2
  shapeCasts_S512x512x256_S262144x256 : S512x512x256.ShapeCasts S262144x256
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S512x512 : S262144x1.ShapeCasts S512x512
  transposes_S512x512_S512x512_1_0 : S512x512.Transposes [1, 0] S512x512
  dot_S262144x256_S256x512_S262144x512_1_0_0_1_n_n_wf : DotDims.WF S262144x256 S256x512 S262144x512 [1] [0] [0] [1] [] []
  dot_S262144x512_S512x1_S262144x1_1_0_0_1_n_n_wf : DotDims.WF S262144x512 S512x1 S262144x1 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf

class Facts : Prop extends Facts₀ where

variable [Facts]
-- ==== Proof.Spec.lean ====
/-
  The mathematics both programs compute, stated once over plain index types.

  Inputs: x, y : [512,128]; W1 : [256,512]; b1 : [512]; W2 : [512,1]; b2 : [1], all extended reals.
  For a pair of rows (a, c) the hidden vector is
      hid(a,c,h) = max( Σ_{k<128} x[a,k]·W1[k,h] + Σ_{k<128} y[c,k]·W1[128+k,h] + b1[h] , 0 )
  and the score is  Σ_{h<512} hid(a,c,h)·W2[h,0] + b2[0].
  The first layer applied to the concatenated row (x[a], y[c]) is a sum over 256 terms; it splits into the two
  sums over 128 terms above by associativity and commutativity of addition alone, so no finiteness is used.
-/
import Idealize.ShloMosaic.PureOps.Ideal
import Idealize.ShloMosaic.Lib.ValueIdx

noncomputable section

namespace Cert.Spec

open Idealize.ShloMosaic Idealize.ShloMosaic.ValueIdx

abbrev SX : Shape := ⟨2, ![512, 128]⟩
abbrev SW1 : Shape := ⟨2, ![256, 512]⟩
abbrev SB1 : Shape := ⟨1, ![512]⟩
abbrev SW2 : Shape := ⟨2, ![512, 1]⟩
abbrev SB2 : Shape := ⟨1, ![1]⟩
abbrev SHalf : Shape := ⟨2, ![128, 512]⟩
abbrev SB1r : Shape := ⟨2, ![1, 512]⟩
abbrev SB2r : Shape := ⟨2, ![1, 1]⟩
abbrev SSq : Shape := ⟨2, ![512, 512]⟩

/-- A [512,128] by [128,512] matrix product: entry (r, h) is the sum over k of u[r,k]·w[k,h]. -/
def mm (u : FVec Ideal SX .f32) (w : FVec Ideal SHalf .f32) : FVec Ideal SSq .f32 :=
  fun j => ∑ k : Fin 128, u (ix2 (j 0) k) * w (ix2 k (j 1))

/-- The pairwise stage as one function of the two projections: entry (a, c) is
    Σ_h max(px[a,h] + py[c,h] + b1[0,h], 0)·w2[h,0] + b2[0,0]. -/
def pair (px py : FVec Ideal SSq .f32) (b1r : FVec Ideal SB1r .f32) (w2 : FVec Ideal SW2 .f32)
    (b2r : FVec Ideal SB2r .f32) : FVec Ideal SSq .f32 :=
  fun j => (∑ h : Fin 512,
      max ((px (ix2 (j 0) h) + py (ix2 (j 1) h)) + b1r (ix2 (0 : Fin 1) h)) (Ideal.ofBits .f32 0x00000000#32)
        * w2 (ix2 h (0 : Fin 1)))
    + b2r (ix2 (0 : Fin 1) (0 : Fin 1))

/-- The upper row block W1[0:128, :]. -/
def w1lo (W1 : FVec Ideal SW1 .f32) : FVec Ideal SHalf .f32 :=
  fun i => W1 (ix2 (⟨(i 0).val, by have := idx2_lt0 i; omega⟩ : Fin 256) (i 1))
/-- The lower row block W1[128:256, :]. -/
def w1hi (W1 : FVec Ideal SW1 .f32) : FVec Ideal SHalf .f32 :=
  fun i => W1 (ix2 (⟨128 + (i 0).val, by have := idx2_lt0 i; omega⟩ : Fin 256) (i 1))
/-- b1 as a [1,512] row. -/
def b1row (b1 : FVec Ideal SB1 .f32) : FVec Ideal SB1r .f32 := fun i => b1 (ix1 (i 1))
/-- b2 as a [1,1] array. -/
def b2cell (b2 : FVec Ideal SB2 .f32) : FVec Ideal SB2r .f32 := fun i => b2 (ix1 (i 1))

/-- The whole result: the pairwise stage of the two projections. -/
def score (x y : FVec Ideal SX .f32) (W1 : FVec Ideal SW1 .f32) (b1 : FVec Ideal SB1 .f32)
    (W2 : FVec Ideal SW2 .f32) (b2 : FVec Ideal SB2 .f32) : FVec Ideal SSq .f32 :=
  pair (mm x (w1lo W1)) (mm y (w1hi W1)) (b1row b1) W2 (b2cell b2)

/-- The score at (a, c), written out. -/
theorem score_apply (x y : FVec Ideal SX .f32) (W1 : FVec Ideal SW1 .f32) (b1 : FVec Ideal SB1 .f32)
    (W2 : FVec Ideal SW2 .f32) (b2 : FVec Ideal SB2 .f32) (a c : Fin 512) :
    score x y W1 b1 W2 b2 (ix2 a c) =
      (∑ h : Fin 512,
        max (((∑ k : Fin 128, x (ix2 a k) * W1 (ix2 (⟨k.val, by have := k.isLt; omega⟩ : Fin 256) h))
              + (∑ k : Fin 128, y (ix2 c k) * W1 (ix2 (⟨128 + k.val, by have := k.isLt; omega⟩ : Fin 256) h)))
              + b1 (ix1 h)) (Ideal.ofBits .f32 0x00000000#32)
          * W2 (ix2 h (0 : Fin 1)))
      + b2 (ix1 (0 : Fin 1)) := rfl

end Cert.Spec

end
-- ==== Proof.KHost.lean ====
/-
  What the first region finds. Before it, four host operations cut W1 into its upper and lower row blocks
  (rows 0..127 and 128..255) and re-lay b1 as a [1,512] row and b2 as a [1,1] array; x, y and W2 are untouched.
-/
import proofs.«160549_j86620900426436_1_alg».proof.Proof.Gen.KernelIdeal.Frame
import proofs.«160549_j86620900426436_1_alg».proof.Proof.Spec
import Idealize.ShloMosaic.Lib.StableHlo.Run
import Idealize.ShloMosaic.Lib.Pipeline.Value

set_option maxRecDepth 16384

noncomputable section

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- x as the region finds it is x as launched. -/
theorem found_x (c : Dev nD) : V1 (F := Ideal) m ρ c main_arg0 = m ((c : Thread nD τ).loc main_arg0) := by
  show StableHlo.after hostOps0 (W0 m ρ c) (Proc.devRef .tc main_arg0) = _
  after_results <;> rfl

/-- y as the region finds it is y as launched. -/
theorem found_y (c : Dev nD) : V1 (F := Ideal) m ρ c main_arg1 = m ((c : Thread nD τ).loc main_arg1) := by
  show StableHlo.after hostOps0 (W0 m ρ c) (Proc.devRef .tc main_arg1) = _
  after_results <;> rfl

/-- W2 after the host stretch is W2 as launched. -/
theorem found_w2 (c : Dev nD) : V1 (F := Ideal) m ρ c main_arg4 = m ((c : Thread nD τ).loc main_arg4) := by
  show StableHlo.after hostOps0 (W0 m ρ c) (Proc.devRef .tc main_arg4) = _
  after_results <;> rfl

/-- The first slice is the upper row block of W1. -/
theorem found_w1lo (c : Dev nD) :
    V1 (F := Ideal) m ρ c main_v0 = Cert.Spec.w1lo (m ((c : Thread nD τ).loc main_arg2)) := by
  have e : V1 (F := Ideal) m ρ c main_v0
      = extractStridedSlice S128x512 ![0, 0] (m ((c : Thread nD τ).loc main_arg2)) slices_S256x512_S128x512_0_0 := by
    show StableHlo.after hostOps0 (W0 m ρ c) (Proc.devRef .tc main_v0) = _
    after_results <;> rfl
  refine e.trans (funext fun i => ?_)
  refine extractStridedSlice_apply _ _ _ i _ fun a => ?_
  match a with
  | ⟨0, _⟩ => exact (Nat.zero_add _).symm
  | ⟨1, _⟩ => exact (Nat.zero_add _).symm

/-- The second slice is the lower row block of W1. -/
theorem found_w1hi (c : Dev nD) :
    V1 (F := Ideal) m ρ c main_v1 = Cert.Spec.w1hi (m ((c : Thread nD τ).loc main_arg2)) := by
  have e : V1 (F := Ideal) m ρ c main_v1
      = extractStridedSlice S128x512 ![128, 0] (m ((c : Thread nD τ).loc main_arg2)) slices_S256x512_S128x512_128_0 := by
    show StableHlo.after hostOps0 (W0 m ρ c) (Proc.devRef .tc main_v1) = _
    after_results <;> rfl
  refine e.trans (funext fun i => ?_)
  refine extractStridedSlice_apply _ _ _ i _ fun a => ?_
  match a with
  | ⟨0, _⟩ => rfl
  | ⟨1, _⟩ => exact (Nat.zero_add _).symm

/-- b1 re-laid as a row. -/
theorem found_b1 (c : Dev nD) :
    V1 (F := Ideal) m ρ c main_v2 = Cert.Spec.b1row (m ((c : Thread nD τ).loc main_arg3)) := by
  have e : V1 (F := Ideal) m ρ c main_v2
      = shapeCast S1x512 (m ((c : Thread nD τ).loc main_arg3)) shapeCasts_S512_S1x512 := by
    show StableHlo.after hostOps0 (W0 m ρ c) (Proc.devRef .tc main_v2) = _
    after_results <;> rfl
  refine e.trans (funext fun i => ?_)
  refine shapeCast_apply _ _ i (ix1 (i 1)) ?_
  rewrite [Shape.rowMajor_val_one, Shape.rowMajor_val_two]
  have h0 : (i 0).val < 1 := (i 0).isLt
  show (i 1).val = (i 0).val * 512 + (i 1).val
  omega

/-- b2 re-laid as a one-by-one array. -/
theorem found_b2 (c : Dev nD) :
    V1 (F := Ideal) m ρ c main_v3 = Cert.Spec.b2cell (m ((c : Thread nD τ).loc main_arg5)) := by
  have e : V1 (F := Ideal) m ρ c main_v3
      = shapeCast S1x1 (m ((c : Thread nD τ).loc main_arg5)) shapeCasts_S1_S1x1 := by
    show StableHlo.after hostOps0 (W0 m ρ c) (Proc.devRef .tc main_v3) = _
    after_results <;> rfl
  refine e.trans (funext fun i => ?_)
  refine shapeCast_apply _ _ i (ix1 (i 1)) ?_
  rewrite [Shape.rowMajor_val_one, Shape.rowMajor_val_two]
  have h0 : (i 0).val < 1 := (i 0).isLt
  show (i 1).val = (i 0).val * 1 + (i 1).val
  omega

end Cert.KernelIdeal.Host

end
-- ==== Proof.Pay.lean ====
/-
  The kernel bodies' arithmetic, read at one index over the extended reals.
  Stage one stores two [512,128]·[128,512] products into zero accumulators: entry (r, h) is Σ_k u[r,k]·w[k,h].
  Stage two, on a tile of 32 rows of Px and 128 rows of Py, stores at (p, q)
      Σ_h max(px[p,h] + py[q,h] + b1[0,h], 0)·w2[h,0] + b2[0,0]:
  the rank-3 broadcast sum is flattened to 4096 rows (row p·128 + q), multiplied by the [512,1] column, and
  the [4096,1] result is re-laid as [32,128].
-/
import proofs.«160549_j86620900426436_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The [512,128]·[128,512] product: the left operand's row is the output's row. -/
theorem proj_lhs_0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
/-- The [512,128]·[128,512] product: the left operand's column is the contraction coordinate. -/
theorem proj_lhs_1 (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q
/-- The [512,128]·[128,512] product: the right operand's row is the contraction coordinate. -/
theorem proj_rhs_0 (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q
/-- The [512,128]·[128,512] product: the right operand's column is the output's column. -/
theorem proj_rhs_1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- A [512,128]·[128,512] product into the zero accumulator, at (r, c): Σ_k a[r,k]·b[k,c]. -/
theorem proj_matmul_apply (a : FVec Ideal S512x128 .bf16) (b : FVec Ideal S128x512 .bf16) (r : Fin 512) (c : Fin 512) :
    matmul dot_S512x128_S128x512_S512x512_1_0_0_1_n_n none a b (constant (F := Ideal) S512x512 .f32 0x00000000#32) (ix2 r c)
      = ∑ k : Fin 128, a (ix2 r k) * b (ix2 k c) := by
  refine (Ideal.matmul_constant_zero_apply dot_S512x128_S128x512_S512x512_1_0_0_1_n_n none a b (ix2 r c)).trans ?_
  rw [← Equiv.sum_comp (ValueIdx.contrEquiv1 dot_S512x128_S128x512_S512x512_1_0_0_1_n_n 128 rfl rfl).symm]
  refine Finset.sum_congr rfl fun k _ => ?_
  have hk := ValueIdx.contrEquiv1_symm_val dot_S512x128_S128x512_S512x512_1_0_0_1_n_n 128 rfl rfl k
  have el : dot_S512x128_S128x512_S512x512_1_0_0_1_n_n.lhsIdx (ix2 r c) ((ValueIdx.contrEquiv1 dot_S512x128_S128x512_S512x512_1_0_0_1_n_n 128 rfl rfl).symm k) = ix2 r k := funext fun x => Fin.ext (by
    match x with
    | ⟨0, _⟩ => exact proj_lhs_0 _ _
    | ⟨1, _⟩ => exact (proj_lhs_1 _ _).trans hk)
  have er : dot_S512x128_S128x512_S512x512_1_0_0_1_n_n.rhsIdx (ix2 r c) ((ValueIdx.contrEquiv1 dot_S512x128_S128x512_S512x512_1_0_0_1_n_n 128 rfl rfl).symm k) = ix2 k c := funext fun x => Fin.ext (by
    match x with
    | ⟨0, _⟩ => exact (proj_rhs_0 _ _).trans hk
    | ⟨1, _⟩ => exact proj_rhs_1 _ _)
  rw [el, er]

/-- The first projection's payload at (r, h). -/
theorem k0_pay1_apply (u : Vec Ideal S512x128 .f32) (w : Vec Ideal S128x512 .f32) (r h : Fin 512) :
    k0_pay1 (F := Ideal) u w (ix2 r h) = ∑ k : Fin 128, u (ix2 r k) * w (ix2 k h) := by
  unfold k0_pay1
  refine (proj_matmul_apply _ _ r h).trans ?_
  refine Finset.sum_congr rfl fun k _ => ?_
  rw [shapeCast_self]
  rfl

/-- The second projection's payload at (r, h). -/
theorem k0_pay2_apply (u : Vec Ideal S512x128 .f32) (w : Vec Ideal S128x512 .f32) (r h : Fin 512) :
    k0_pay2 (F := Ideal) u w (ix2 r h) = ∑ k : Fin 128, u (ix2 r k) * w (ix2 k h) := by
  unfold k0_pay2
  refine (proj_matmul_apply _ _ r h).trans ?_
  refine Finset.sum_congr rfl fun k _ => ?_
  rw [shapeCast_self]
  rfl

/-- The [4096,512]·[512,1] product: the left operand's row is the output's row. -/
theorem pair_lhs_0 (i : S4096x1.Idx) (q : dot_S4096x512_S512x1_S4096x1_1_0_0_1_n_n.contr.Idx) :
    (dot_S4096x512_S512x1_S4096x1_1_0_0_1_n_n.lhsIdx i q 0).val = (i 0).val := by
  unfold DotDims.lhsIdx
  rw [dif_neg (show ¬(0 : Fin S4096x512.rank) ∈ dot_S4096x512_S512x1_S4096x1_1_0_0_1_n_n.lhsBatch by decide), dif_pos (show (0 : Fin S4096x512.rank) ∈ dot_S4096x512_S512x1_S4096x1_1_0_0_1_n_n.lhsNonContracting by decide)]
  rfl
/-- The [4096,512]·[512,1] product: the left operand's column is the contraction coordinate. -/
theorem pair_lhs_1 (i : S4096x1.Idx) (q : dot_S4096x512_S512x1_S4096x1_1_0_0_1_n_n.contr.Idx) :
    (dot_S4096x512_S512x1_S4096x1_1_0_0_1_n_n.lhsIdx i q 1).val = (q ⟨0, by decide⟩).val :=
  dot_S4096x512_S512x1_S4096x1_1_0_0_1_n_n.lhsIdx_val_of_single rfl i q
/-- The [4096,512]·[512,1] product: the right operand's row is the contraction coordinate. -/
theorem pair_rhs_0 (i : S4096x1.Idx) (q : dot_S4096x512_S512x1_S4096x1_1_0_0_1_n_n.contr.Idx) :
    (dot_S4096x512_S512x1_S4096x1_1_0_0_1_n_n.rhsIdx i q 0).val = (q ⟨0, by decide⟩).val :=
  dot_S4096x512_S512x1_S4096x1_1_0_0_1_n_n.rhsIdx_val_of_single rfl i q
/-- The [4096,512]·[512,1] product: the right operand's column is the output's column. -/
theorem pair_rhs_1 (i : S4096x1.Idx) (q : dot_S4096x512_S512x1_S4096x1_1_0_0_1_n_n.contr.Idx) :
    (dot_S4096x512_S512x1_S4096x1_1_0_0_1_n_n.rhsIdx i q 1).val = (i 1).val := by
  unfold DotDims.rhsIdx
  rw [dif_neg (show ¬(1 : Fin S512x1.rank) ∈ dot_S4096x512_S512x1_S4096x1_1_0_0_1_n_n.rhsBatch by decide), dif_pos (show (1 : Fin S512x1.rank) ∈ dot_S4096x512_S512x1_S4096x1_1_0_0_1_n_n.rhsNonContracting by decide)]
  rfl

/-- A [4096,512]·[512,1] product into the zero accumulator, at (r, c): Σ_k a[r,k]·b[k,c]. -/
theorem pair_matmul_apply (a : FVec Ideal S4096x512 .bf16) (b : FVec Ideal S512x1 .bf16) (r : Fin 4096) (c : Fin 1) :
    matmul dot_S4096x512_S512x1_S4096x1_1_0_0_1_n_n none a b (constant (F := Ideal) S4096x1 .f32 0x00000000#32) (ix2 r c)
      = ∑ k : Fin 512, a (ix2 r k) * b (ix2 k c) := by
  refine (Ideal.matmul_constant_zero_apply dot_S4096x512_S512x1_S4096x1_1_0_0_1_n_n none a b (ix2 r c)).trans ?_
  rw [← Equiv.sum_comp (ValueIdx.contrEquiv1 dot_S4096x512_S512x1_S4096x1_1_0_0_1_n_n 512 rfl rfl).symm]
  refine Finset.sum_congr rfl fun k _ => ?_
  have hk := ValueIdx.contrEquiv1_symm_val dot_S4096x512_S512x1_S4096x1_1_0_0_1_n_n 512 rfl rfl k
  have el : dot_S4096x512_S512x1_S4096x1_1_0_0_1_n_n.lhsIdx (ix2 r c) ((ValueIdx.contrEquiv1 dot_S4096x512_S512x1_S4096x1_1_0_0_1_n_n 512 rfl rfl).symm k) = ix2 r k := funext fun x => Fin.ext (by
    match x with
    | ⟨0, _⟩ => exact pair_lhs_0 _ _
    | ⟨1, _⟩ => exact (pair_lhs_1 _ _).trans hk)
  have er : dot_S4096x512_S512x1_S4096x1_1_0_0_1_n_n.rhsIdx (ix2 r c) ((ValueIdx.contrEquiv1 dot_S4096x512_S512x1_S4096x1_1_0_0_1_n_n 512 rfl rfl).symm k) = ix2 k c := funext fun x => Fin.ext (by
    match x with
    | ⟨0, _⟩ => exact (pair_rhs_0 _ _).trans hk
    | ⟨1, _⟩ => exact pair_rhs_1 _ _)
  rw [el, er]

/-- Row p·128 + q of the flattened arrays. -/
abbrev flatRow (p : Fin 32) (q : Fin 128) : Fin 4096 :=
  ⟨p.val * 128 + q.val, by have := p.isLt; have := q.isLt; omega⟩

/-- [32,512] re-laid as [32,1,512]: entry (p, 0, h) is entry (p, h). -/
theorem cast_32x512_addMid {α : Type} (x : S32x512.Idx → α) (hc : S32x512.ShapeCasts S32x1x512) (p : Fin 32) (h : Fin 512) :
    shapeCast S32x1x512 x hc (ix3 p (0 : Fin 1) h) = x (ix2 p h) :=
  shapeCast_apply x hc (ix3 p (0 : Fin 1) h) (ix2 p h)
    (by rewrite [Shape.rowMajor_val_two, Shape.rowMajor_val_three]; show p.val * 512 + h.val = (p.val * 1 + 0) * 512 + h.val; omega)

/-- [128,512] re-laid as [1,128,512]: entry (0, q, h) is entry (q, h). -/
theorem cast_128x512_addLead {α : Type} (x : S128x512.Idx → α) (hc : S128x512.ShapeCasts S1x128x512) (q : Fin 128) (h : Fin 512) :
    shapeCast S1x128x512 x hc (ix3 (0 : Fin 1) q h) = x (ix2 q h) :=
  shapeCast_apply x hc (ix3 (0 : Fin 1) q h) (ix2 q h)
    (by rewrite [Shape.rowMajor_val_two, Shape.rowMajor_val_three]; show q.val * 512 + h.val = (0 * 128 + q.val) * 512 + h.val; omega)

/-- [1,512] re-laid as [1,1,512]: entry (0, 0, h) is entry (0, h). -/
theorem cast_1x512_addLead {α : Type} (x : S1x512.Idx → α) (hc : S1x512.ShapeCasts S1x1x512) (h : Fin 512) :
    shapeCast S1x1x512 x hc (ix3 (0 : Fin 1) (0 : Fin 1) h) = x (ix2 (0 : Fin 1) h) :=
  shapeCast_apply x hc (ix3 (0 : Fin 1) (0 : Fin 1) h) (ix2 (0 : Fin 1) h)
    (by rewrite [Shape.rowMajor_val_two, Shape.rowMajor_val_three]; show 0 * 512 + h.val = (0 * 1 + 0) * 512 + h.val; omega)

/-- [32,128,512] flattened to [4096,512]: row p·128 + q, column h is entry (p, q, h). -/
theorem cast_flatten {α : Type} (x : S32x128x512.Idx → α) (hc : S32x128x512.ShapeCasts S4096x512) (p : Fin 32) (q : Fin 128) (h : Fin 512) :
    shapeCast S4096x512 x hc (ix2 (flatRow p q) h) = x (ix3 p q h) :=
  shapeCast_apply x hc (ix2 (flatRow p q) h) (ix3 p q h)
    (by rewrite [Shape.rowMajor_val_three, Shape.rowMajor_val_two]; show (p.val * 128 + q.val) * 512 + h.val = (p.val * 128 + q.val) * 512 + h.val; rfl)

/-- The [4096,1] column re-laid as [32,128]: entry (p, q) is row p·128 + q. -/
theorem cast_unflatten {α : Type} (x : S4096x1.Idx → α) (hc : S4096x1.ShapeCasts S32x128) (p : Fin 32) (q : Fin 128) :
    shapeCast S32x128 x hc (ix2 p q) = x (ix2 (flatRow p q) (0 : Fin 1)) :=
  shapeCast_apply x hc (ix2 p q) (ix2 (flatRow p q) (0 : Fin 1))
    (by rewrite [Shape.rowMajor_val_two, Shape.rowMajor_val_two]; show (p.val * 128 + q.val) * 1 + 0 = p.val * 128 + q.val; omega)

/-- [32,1,512] broadcast along the middle axis: entry (p, q, h) is entry (p, 0, h). -/
theorem bcast_mid {α : Type} (x : S32x1x512.Idx → α) (hb : S32x1x512.Broadcasts S32x128x512) (p : Fin 32) (q : Fin 128) (h : Fin 512) :
    broadcastTo S32x128x512 x hb (ix3 p q h) = x (ix3 p (0 : Fin 1) h) :=
  broadcastTo_apply x hb (ix3 p q h) (ix3 p (0 : Fin 1) h) (fun a => match a with
    | ⟨0, _⟩ => by show p.val = if (32 : Nat) = 1 then 0 else p.val; rw [if_neg (by decide)]
    | ⟨1, _⟩ => by show 0 = if (1 : Nat) = 1 then 0 else q.val; rw [if_pos rfl]
    | ⟨2, _⟩ => by show h.val = if (512 : Nat) = 1 then 0 else h.val; rw [if_neg (by decide)])

/-- [1,128,512] broadcast along the leading axis: entry (p, q, h) is entry (0, q, h). -/
theorem bcast_lead {α : Type} (x : S1x128x512.Idx → α) (hb : S1x128x512.Broadcasts S32x128x512) (p : Fin 32) (q : Fin 128) (h : Fin 512) :
    broadcastTo S32x128x512 x hb (ix3 p q h) = x (ix3 (0 : Fin 1) q h) :=
  broadcastTo_apply x hb (ix3 p q h) (ix3 (0 : Fin 1) q h) (fun a => match a with
    | ⟨0, _⟩ => by show 0 = if (1 : Nat) = 1 then 0 else p.val; rw [if_pos rfl]
    | ⟨1, _⟩ => by show q.val = if (128 : Nat) = 1 then 0 else q.val; rw [if_neg (by decide)]
    | ⟨2, _⟩ => by show h.val = if (512 : Nat) = 1 then 0 else h.val; rw [if_neg (by decide)])

/-- [1,1,512] broadcast along both leading axes: entry (p, q, h) is entry (0, 0, h). -/
theorem bcast_lead2 {α : Type} (x : S1x1x512.Idx → α) (hb : S1x1x512.Broadcasts S32x128x512) (p : Fin 32) (q : Fin 128) (h : Fin 512) :
    broadcastTo S32x128x512 x hb (ix3 p q h) = x (ix3 (0 : Fin 1) (0 : Fin 1) h) :=
  broadcastTo_apply x hb (ix3 p q h) (ix3 (0 : Fin 1) (0 : Fin 1) h) (fun a => match a with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show h.val = if (512 : Nat) = 1 then 0 else h.val; rw [if_neg (by decide)])

/-- The [1,1] scalar broadcast to [32,128]: every entry is entry (0, 0). -/
theorem bcast_scalar {α : Type} (x : S1x1.Idx → α) (hb : S1x1.Broadcasts S32x128) (p : Fin 32) (q : Fin 128) :
    broadcastTo S32x128 x hb (ix2 p q) = x (ix2 (0 : Fin 1) (0 : Fin 1)) :=
  broadcastTo_apply x hb (ix2 p q) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else q.val; rw [if_pos rfl])

/-- The activation at (p, q, h): max(px[p,h] + py[q,h] + b1[0,h], 0). -/
theorem act_apply (px : Vec Ideal S32x512 .f32) (py : Vec Ideal S128x512 .f32) (b1r : Vec Ideal S1x512 .f32)
    (h1 : S32x512.ShapeCasts S32x512) (h2 : S128x512.ShapeCasts S128x512) (h3 : S1x512.ShapeCasts S1x512)
    (h4 : S32x512.ShapeCasts S32x1x512) (h5 : S128x512.ShapeCasts S1x128x512) (h6 : S32x1x512.Broadcasts S32x128x512)
    (h7 : S1x128x512.Broadcasts S32x128x512) (h8 : S1x512.ShapeCasts S1x1x512) (h9 : S1x1x512.Broadcasts S32x128x512)
    (p : Fin 32) (q : Fin 128) (h : Fin 512) :
    maximumf (F := Ideal)
        (addf (addf (broadcastTo S32x128x512 (shapeCast S32x1x512 (shapeCast S32x512 px h1) h4) h6)
                    (broadcastTo S32x128x512 (shapeCast S1x128x512 (shapeCast S128x512 py h2) h5) h7))
              (broadcastTo S32x128x512 (shapeCast S1x1x512 (shapeCast S1x512 b1r h3) h8) h9))
        (broadcast S32x128x512 (Scalar.ofBits (F := Ideal) .f32 0x00000000#32)) (ix3 p q h)
      = max ((px (ix2 p h) + py (ix2 q h)) + b1r (ix2 (0 : Fin 1) h)) (Ideal.ofBits .f32 0x00000000#32) := by
  rw [maximumf_apply, addf_apply, addf_apply, broadcast_apply, bcast_mid, bcast_lead, bcast_lead2,
    cast_32x512_addMid, cast_128x512_addLead, cast_1x512_addLead, shapeCast_self, shapeCast_self, shapeCast_self]
  rfl

/-- The tile given its activation z: at (p, q), Σ_h z[p,q,h]·w2[h,0] + b2[0,0]. -/
theorem tile_apply (z : FVec Ideal S32x128x512 .f32) (w2 : Vec Ideal S512x1 .f32) (b2r : Vec Ideal S1x1 .f32)
    (h1 : S32x128x512.ShapeCasts S4096x512) (hb : FTy.bits .bf16 < FTy.bits .f32) (h2 : S4096x1.ShapeCasts S32x128)
    (h3 : S1x1.ShapeCasts S1x1) (h4 : S1x1.Broadcasts S32x128) (p : Fin 32) (q : Fin 128) :
    addf (F := Ideal)
        (shapeCast S32x128 (matmul dot_S4096x512_S512x1_S4096x1_1_0_0_1_n_n none (truncf .bf16 (shapeCast S4096x512 z h1) hb) (truncf .bf16 w2 hb)
          (constant (F := Ideal) S4096x1 .f32 0x00000000#32)) h2)
        (broadcastTo S32x128 (shapeCast S1x1 b2r h3) h4) (ix2 p q)
      = (∑ h : Fin 512, z (ix3 p q h) * w2 (ix2 h (0 : Fin 1))) + b2r (ix2 (0 : Fin 1) (0 : Fin 1)) := by
  rw [addf_apply, bcast_scalar, shapeCast_self, cast_unflatten, pair_matmul_apply]
  refine congrArg (· + _) (Finset.sum_congr rfl fun h _ => ?_)
  rw [truncf_apply, truncf_apply, cast_flatten]

/-- The pairwise tile's payload at (p, q). -/
theorem k1_pay1_apply (px : Vec Ideal S32x512 .f32) (py : Vec Ideal S128x512 .f32) (b1r : Vec Ideal S1x512 .f32)
    (w2 : Vec Ideal S512x1 .f32) (b2r : Vec Ideal S1x1 .f32) (p : Fin 32) (q : Fin 128) :
    k1_pay1 (F := Ideal) px py b1r w2 b2r (ix2 p q) =
      (∑ h : Fin 512,
          max ((px (ix2 p h) + py (ix2 q h)) + b1r (ix2 (0 : Fin 1) h)) (Ideal.ofBits .f32 0x00000000#32)
            * w2 (ix2 h (0 : Fin 1)))
        + b2r (ix2 (0 : Fin 1) (0 : Fin 1)) := by
  unfold k1_pay1
  refine (tile_apply _ w2 b2r _ _ _ _ _ p q).trans ?_
  refine congrArg (· + _) (Finset.sum_congr rfl fun h _ => ?_)
  exact congrArg (· * _) (act_apply px py b1r _ _ _ _ _ _ _ _ _ p q h)

end Cert.KernelIdeal.Pay

end
-- ==== Proof.KVal0.lean ====
/-
  Stage one as whole arrays. The grid has one point and every window is its whole array, so after the region the
  two output arrays hold the two matrix products of the arrays the region found: Px = x·W1lo, Py = y·W1hi.
-/
import proofs.«160549_j86620900426436_1_alg».proof.Proof.Gen.KernelIdeal.Frame
import proofs.«160549_j86620900426436_1_alg».proof.Proof.Spec
import proofs.«160549_j86620900426436_1_alg».proof.Proof.Pay

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The origin of a rank-two array, as a constant function. -/
theorem zero_offsets : (![0, 0] : Fin 2 → Nat) = fun _ => 0 := funext fun a => by fin_cases a <;> rfl

/-- Every window's block index is (0, 0) at every point of the grid: each block is its whole array. -/
theorem index_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The grid has a point. -/
theorem some_point : ∃ t : Fin cfg0.N, True := (by decide +kernel : ∃ t : Fin grid0.N, True)

/-! ## The input blocks are the input arrays -/

/-- The first window's block is the whole first input x. -/
theorem read_x (c : Dev nD) (t : Fin cfg0.N) (r : Fin 512) (k : Fin 128) :
    iblk0 (F := Ideal) V c 0 t (ix2 r k) = V c main_arg0 (ix2 r k) := by
  obtain ⟨e0, e1, -⟩ := index_zero t
  unfold iblk0
  rw [View.read_apply]
  show V c main_arg0 (((cfg0.win 0).blk t).view.emb (ix2 r k)) = V c main_arg0 (ix2 r k)
  refine congrArg _ (funext fun a => Fin.ext ?_)
  match a with
  | ⟨0, _⟩ => show win0_0.index t (0 : Fin 2) * 512 + 1 * r.val = r.val; omega
  | ⟨1, _⟩ => show win0_0.index t (1 : Fin 2) * 128 + 1 * k.val = k.val; omega

/-- The second window's block is the whole second input y. -/
theorem read_y (c : Dev nD) (t : Fin cfg0.N) (r : Fin 512) (k : Fin 128) :
    iblk0 (F := Ideal) V c 1 t (ix2 r k) = V c main_arg1 (ix2 r k) := by
  obtain ⟨-, -, e0, e1, -⟩ := index_zero t
  unfold iblk0
  rw [View.read_apply]
  show V c main_arg1 (((cfg0.win 1).blk t).view.emb (ix2 r k)) = V c main_arg1 (ix2 r k)
  refine congrArg _ (funext fun a => Fin.ext ?_)
  match a with
  | ⟨0, _⟩ => show win0_1.index t (0 : Fin 2) * 512 + 1 * r.val = r.val; omega
  | ⟨1, _⟩ => show win0_1.index t (1 : Fin 2) * 128 + 1 * k.val = k.val; omega

/-- The third window's block is the whole upper weight block. -/
theorem read_wlo (c : Dev nD) (t : Fin cfg0.N) (k : Fin 128) (h : Fin 512) :
    iblk0 (F := Ideal) V c 2 t (ix2 k h) = V c main_v0 (ix2 k h) := by
  obtain ⟨-, -, -, -, e0, e1, -⟩ := index_zero t
  unfold iblk0
  rw [View.read_apply]
  show V c main_v0 (((cfg0.win 2).blk t).view.emb (ix2 k h)) = V c main_v0 (ix2 k h)
  refine congrArg _ (funext fun a => Fin.ext ?_)
  match a with
  | ⟨0, _⟩ => show win0_2.index t (0 : Fin 2) * 128 + 1 * k.val = k.val; omega
  | ⟨1, _⟩ => show win0_2.index t (1 : Fin 2) * 512 + 1 * h.val = h.val; omega

/-- The fourth window's block is the whole lower weight block. -/
theorem read_whi (c : Dev nD) (t : Fin cfg0.N) (k : Fin 128) (h : Fin 512) :
    iblk0 (F := Ideal) V c 3 t (ix2 k h) = V c main_v1 (ix2 k h) := by
  obtain ⟨-, -, -, -, -, -, e0, e1, -⟩ := index_zero t
  unfold iblk0
  rw [View.read_apply]
  show V c main_v1 (((cfg0.win 3).blk t).view.emb (ix2 k h)) = V c main_v1 (ix2 k h)
  refine congrArg _ (funext fun a => Fin.ext ?_)
  match a with
  | ⟨0, _⟩ => show win0_3.index t (0 : Fin 2) * 128 + 1 * k.val = k.val; omega
  | ⟨1, _⟩ => show win0_3.index t (1 : Fin 2) * 512 + 1 * h.val = h.val; omega

/-! ## The first output: Px = x·W1lo -/

/-- The fifth window's block sits at the origin of the first output. -/
theorem emb_px (t : Fin cfg0.N) (r h : Fin 512) :
    ((cfg0.win 4).blk t).view.emb (ix2 r h) = ix2 r h := by
  obtain ⟨-, -, -, -, -, -, -, -, e0, e1, -⟩ := index_zero t
  refine funext fun a => Fin.ext ?_
  match a with
  | ⟨0, _⟩ => show win0_4.index t (0 : Fin 2) * 512 + 1 * r.val = r.val; omega
  | ⟨1, _⟩ => show win0_4.index t (1 : Fin 2) * 512 + 1 * h.val = h.val; omega

/-- What a point writes back to the first output is its block of the product x·W1lo. -/
theorem px_flushed (c : Dev nD) (t : Fin cfg0.N) :
    (dat0 (F := Ideal) V c).flushed 4 t
      = ((cfg0.win 4).blk t).view.read (Elt Ideal) (Cert.Spec.mm (V c main_arg0) (V c main_v0)) := by
  show (cfg0.win 4).cut (grid0.coords t) ((dat0 (F := Ideal) V c).after 4 t) = _
  rw [after0_4]
  unfold out0_4
  rw [View.canon_unit_zero zero_offsets]
  simp only [View.ld_unit_zero (S := S512x128) zero_offsets, View.ld_unit_zero (S := S128x512) zero_offsets]
  funext y
  obtain ⟨p, q, rfl⟩ : ∃ (p : Fin 512) (q : Fin 512), y = ix2 p q := ⟨y 0, y 1, eq_ix2 y⟩
  show k0_pay1 (F := Ideal) (iblk0 V c 0 t) (iblk0 V c 2 t) (ix2 p q)
      = Cert.Spec.mm (V c main_arg0) (V c main_v0) (((cfg0.win 4).blk t).view.emb (ix2 p q))
  rw [emb_px]
  refine (Pay.k0_pay1_apply _ _ p q).trans ?_
  refine Finset.sum_congr rfl fun k _ => ?_
  rw [read_x, read_wlo]

/-- An index of the first output lies in a point's block iff each coordinate lies in the block's range. -/
theorem mem_px_blk (t : Fin cfg0.N) (i : S512x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v4_0).slice (win0_4.rect t)).set ↔ _
  rw [View.set_slice_whole, Rect.mem_set_unit]
  exact Iff.rfl

/-- The one point's block is the whole first output. -/
theorem px_cover (i : S512x512.Idx) :
    ∃ t : Fin cfg0.N, (cfg0.win 4).flush t = true ∧ i ∈ ((cfg0.win 4).blk t).view.set := by
  have hi0 : (i 0).val < 512 := (i 0).isLt
  have hi1 : (i 1).val < 512 := (i 1).isLt
  obtain ⟨t, -⟩ := some_point
  obtain ⟨-, -, -, -, -, -, -, -, e0, e1, -⟩ := index_zero t
  refine ⟨t, flush0_4 t, ?_⟩
  rw [mem_px_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- After the region, the first output array is the product of the first input with the upper block. -/
theorem px_eq (c : Dev nD) :
    (dat0 (F := Ideal) V c).arrAt 4 cfg0.N = Cert.Spec.mm (V c main_arg0) (V c main_v0) :=
  (dat0 (F := Ideal) V c).arrAt_eq_of_cover 4 _ (fun t _ => px_flushed V c t) px_cover

/-! ## The second output: Py = y·W1hi -/

/-- The sixth window's block sits at the origin of the second output. -/
theorem emb_py (t : Fin cfg0.N) (r h : Fin 512) :
    ((cfg0.win 5).blk t).view.emb (ix2 r h) = ix2 r h := by
  obtain ⟨-, -, -, -, -, -, -, -, -, -, e0, e1⟩ := index_zero t
  refine funext fun a => Fin.ext ?_
  match a with
  | ⟨0, _⟩ => show win0_5.index t (0 : Fin 2) * 512 + 1 * r.val = r.val; omega
  | ⟨1, _⟩ => show win0_5.index t (1 : Fin 2) * 512 + 1 * h.val = h.val; omega

/-- What a point writes back to the second output is its block of the product y·W1hi. -/
theorem py_flushed (c : Dev nD) (t : Fin cfg0.N) :
    (dat0 (F := Ideal) V c).flushed 5 t
      = ((cfg0.win 5).blk t).view.read (Elt Ideal) (Cert.Spec.mm (V c main_arg1) (V c main_v1)) := by
  show (cfg0.win 5).cut (grid0.coords t) ((dat0 (F := Ideal) V c).after 5 t) = _
  rw [after0_5]
  unfold out0_5
  rw [View.canon_unit_zero zero_offsets]
  simp only [View.ld_unit_zero (S := S512x128) zero_offsets, View.ld_unit_zero (S := S128x512) zero_offsets]
  funext y
  obtain ⟨p, q, rfl⟩ : ∃ (p : Fin 512) (q : Fin 512), y = ix2 p q := ⟨y 0, y 1, eq_ix2 y⟩
  show k0_pay2 (F := Ideal) (iblk0 V c 1 t) (iblk0 V c 3 t) (ix2 p q)
      = Cert.Spec.mm (V c main_arg1) (V c main_v1) (((cfg0.win 5).blk t).view.emb (ix2 p q))
  rw [emb_py]
  refine (Pay.k0_pay2_apply _ _ p q).trans ?_
  refine Finset.sum_congr rfl fun k _ => ?_
  rw [read_y, read_whi]

/-- An index of the second output lies in a point's block iff each coordinate lies in the block's range. -/
theorem mem_py_blk (t : Fin cfg0.N) (i : S512x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v4_1).slice (win0_5.rect t)).set ↔ _
  rw [View.set_slice_whole, Rect.mem_set_unit]
  exact Iff.rfl

/-- The one point's block is the whole second output. -/
theorem py_cover (i : S512x512.Idx) :
    ∃ t : Fin cfg0.N, (cfg0.win 5).flush t = true ∧ i ∈ ((cfg0.win 5).blk t).view.set := by
  have hi0 : (i 0).val < 512 := (i 0).isLt
  have hi1 : (i 1).val < 512 := (i 1).isLt
  obtain ⟨t, -⟩ := some_point
  obtain ⟨-, -, -, -, -, -, -, -, -, -, e0, e1⟩ := index_zero t
  refine ⟨t, flush0_5 t, ?_⟩
  rw [mem_py_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- After the region, the second output array is the product of the second input with the lower block. -/
theorem py_eq (c : Dev nD) :
    (dat0 (F := Ideal) V c).arrAt 5 cfg0.N = Cert.Spec.mm (V c main_arg1) (V c main_v1) :=
  (dat0 (F := Ideal) V c).arrAt_eq_of_cover 5 _ (fun t _ => py_flushed V c t) py_cover

end Cert.KernelIdeal.Reg0

end
-- ==== Proof.KVal1.lean ====
/-
  Stage two as a whole array. Point (i, j) of the 16×4 grid reads rows 32i..32i+31 of Px and rows 128j..128j+127
  of Py and writes the [32,128] tile at block (i, j) of the [512,512] output; the tiles cover the output, and each
  is the restriction of one function of (Px, Py, b1, W2, b2).
-/
import proofs.«160549_j86620900426436_1_alg».proof.Proof.Gen.KernelIdeal.Frame
import proofs.«160549_j86620900426436_1_alg».proof.Proof.Spec
import proofs.«160549_j86620900426436_1_alg».proof.Proof.Pay

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The origin of a rank-two array, as a constant function. -/
theorem zero_offsets : (![0, 0] : Fin 2 → Nat) = fun _ => 0 := funext fun a => by fin_cases a <;> rfl

/-- The block indices over the 16×4 grid: the Px tile moves with the output's row block, the Py tile with the
    output's column block, both at column block 0; the bias row, the column W2 and the cell b2 are whole; the
    output's block index stays inside 16×4. -/
theorem index_facts : ∀ t : Fin cfg1.N,
    win1_0.index t (0 : Fin 2) = win1_5.index t (0 : Fin 2) ∧ win1_0.index t (1 : Fin 2) = 0
    ∧ win1_1.index t (0 : Fin 2) = win1_5.index t (1 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 15 ∧ win1_5.index t (1 : Fin 2) ≤ 3 :=
  (by decide +kernel : ∀ t : Fin grid1.N, _)

/-- Every block (a, b) of the 16×4 tiling is some point's. -/
theorem index_onto : ∀ (q0 : Fin 16) (q1 : Fin 4), ∃ t : Fin cfg1.N, win1_5.index t = ![q0.val, q1.val] :=
  (by decide +kernel : ∀ (q0 : Fin 16) (q1 : Fin 4), ∃ t : Fin grid1.N, win1_5.index t = ![q0.val, q1.val])

/-! ## The input blocks as rows of the input arrays -/

/-- Row p of the Px tile at a point is row 32·a + p of Px, a the output's row block there. -/
theorem read_px (c : Dev nD) (t : Fin cfg1.N) (p : Fin 32) (h : Fin 512) (r : Fin 512)
    (hr : r.val = win1_5.index t (0 : Fin 2) * 32 + p.val) :
    iblk1 (F := Ideal) V c 0 t (ix2 p h) = V c main_v4_0 (ix2 r h) := by
  obtain ⟨e0, e1, -⟩ := index_facts t
  unfold iblk1
  rw [View.read_apply]
  show V c main_v4_0 (((cfg1.win 0).blk t).view.emb (ix2 p h)) = V c main_v4_0 (ix2 r h)
  refine congrArg _ (funext fun a => Fin.ext ?_)
  match a with
  | ⟨0, _⟩ => show win1_0.index t (0 : Fin 2) * 32 + 1 * p.val = r.val; omega
  | ⟨1, _⟩ => show win1_0.index t (1 : Fin 2) * 512 + 1 * h.val = h.val; omega

/-- Row q of the Py tile at a point is row 128·b + q of Py, b the output's column block there. -/
theorem read_py (c : Dev nD) (t : Fin cfg1.N) (q : Fin 128) (h : Fin 512) (s : Fin 512)
    (hs : s.val = win1_5.index t (1 : Fin 2) * 128 + q.val) :
    iblk1 (F := Ideal) V c 1 t (ix2 q h) = V c main_v4_1 (ix2 s h) := by
  obtain ⟨-, -, e0, e1, -⟩ := index_facts t
  unfold iblk1
  rw [View.read_apply]
  show V c main_v4_1 (((cfg1.win 1).blk t).view.emb (ix2 q h)) = V c main_v4_1 (ix2 s h)
  refine congrArg _ (funext fun a => Fin.ext ?_)
  match a with
  | ⟨0, _⟩ => show win1_1.index t (0 : Fin 2) * 128 + 1 * q.val = s.val; omega
  | ⟨1, _⟩ => show win1_1.index t (1 : Fin 2) * 512 + 1 * h.val = h.val; omega

/-- The bias row's block is the whole bias row. -/
theorem read_b1 (c : Dev nD) (t : Fin cfg1.N) (z : Fin 1) (h : Fin 512) :
    iblk1 (F := Ideal) V c 2 t (ix2 z h) = V c main_v2 (ix2 z h) := by
  obtain ⟨-, -, -, -, e0, e1, -⟩ := index_facts t
  unfold iblk1
  rw [View.read_apply]
  show V c main_v2 (((cfg1.win 2).blk t).view.emb (ix2 z h)) = V c main_v2 (ix2 z h)
  refine congrArg _ (funext fun a => Fin.ext ?_)
  match a with
  | ⟨0, _⟩ => show win1_2.index t (0 : Fin 2) * 1 + 1 * z.val = z.val; omega
  | ⟨1, _⟩ => show win1_2.index t (1 : Fin 2) * 512 + 1 * h.val = h.val; omega

/-- The second layer's block is the whole column W2. -/
theorem read_w2 (c : Dev nD) (t : Fin cfg1.N) (h : Fin 512) (z : Fin 1) :
    iblk1 (F := Ideal) V c 3 t (ix2 h z) = V c main_arg4 (ix2 h z) := by
  obtain ⟨-, -, -, -, -, -, e0, e1, -⟩ := index_facts t
  unfold iblk1
  rw [View.read_apply]
  show V c main_arg4 (((cfg1.win 3).blk t).view.emb (ix2 h z)) = V c main_arg4 (ix2 h z)
  refine congrArg _ (funext fun a => Fin.ext ?_)
  match a with
  | ⟨0, _⟩ => show win1_3.index t (0 : Fin 2) * 512 + 1 * h.val = h.val; omega
  | ⟨1, _⟩ => show win1_3.index t (1 : Fin 2) * 1 + 1 * z.val = z.val; omega

/-- The last input's block is the whole cell b2. -/
theorem read_b2 (c : Dev nD) (t : Fin cfg1.N) (z z' : Fin 1) :
    iblk1 (F := Ideal) V c 4 t (ix2 z z') = V c main_v3 (ix2 z z') := by
  obtain ⟨-, -, -, -, -, -, -, -, e0, e1, -⟩ := index_facts t
  unfold iblk1
  rw [View.read_apply]
  show V c main_v3 (((cfg1.win 4).blk t).view.emb (ix2 z z')) = V c main_v3 (ix2 z z')
  refine congrArg _ (funext fun a => Fin.ext ?_)
  match a with
  | ⟨0, _⟩ => show win1_4.index t (0 : Fin 2) * 1 + 1 * z.val = z.val; omega
  | ⟨1, _⟩ => show win1_4.index t (1 : Fin 2) * 1 + 1 * z'.val = z'.val; omega

/-! ## The output -/

/-- Entry (p, q) of the output tile at a point is entry (32·a + p, 128·b + q) of the output, (a, b) its block. -/
theorem emb_out (t : Fin cfg1.N) (p : Fin 32) (q : Fin 128) (r s : Fin 512)
    (hr : r.val = win1_5.index t (0 : Fin 2) * 32 + p.val) (hs : s.val = win1_5.index t (1 : Fin 2) * 128 + q.val) :
    ((cfg1.win 5).blk t).view.emb (ix2 p q) = ix2 r s := by
  refine funext fun a => Fin.ext ?_
  match a with
  | ⟨0, _⟩ => show win1_5.index t (0 : Fin 2) * 32 + 1 * p.val = r.val; omega
  | ⟨1, _⟩ => show win1_5.index t (1 : Fin 2) * 128 + 1 * q.val = s.val; omega

/-- The pairwise function at a row pair (r, s), written out. -/
theorem pair_apply (px py : FVec Ideal Cert.Spec.SSq .f32) (b1r : FVec Ideal Cert.Spec.SB1r .f32)
    (w2 : FVec Ideal Cert.Spec.SW2 .f32) (b2r : FVec Ideal Cert.Spec.SB2r .f32) (r s : Fin 512) :
    Cert.Spec.pair px py b1r w2 b2r (ix2 r s)
      = (∑ h : Fin 512,
          max ((px (ix2 r h) + py (ix2 s h)) + b1r (ix2 (0 : Fin 1) h)) (Ideal.ofBits .f32 0x00000000#32)
            * w2 (ix2 h (0 : Fin 1)))
        + b2r (ix2 (0 : Fin 1) (0 : Fin 1)) := rfl

/-- What a point writes back is its tile of the pairwise function of the arrays the region found. -/
theorem out_flushed (c : Dev nD) (t : Fin cfg1.N) :
    (dat1 (F := Ideal) V c).flushed 5 t
      = ((cfg1.win 5).blk t).view.read (Elt Ideal)
          (Cert.Spec.pair (V c main_v4_0) (V c main_v4_1) (V c main_v2) (V c main_arg4) (V c main_v3)) := by
  show (cfg1.win 5).cut (grid1.coords t) ((dat1 (F := Ideal) V c).after 5 t) = _
  rw [after1_5]
  unfold out1_5
  rw [View.canon_unit_zero zero_offsets]
  simp only [View.ld_unit_zero (S := S32x512) zero_offsets, View.ld_unit_zero (S := S128x512) zero_offsets,
    View.ld_unit_zero (S := S1x512) zero_offsets, View.ld_unit_zero (S := S512x1) zero_offsets,
    View.ld_unit_zero (S := S1x1) zero_offsets]
  funext y
  obtain ⟨p, q, rfl⟩ : ∃ (p : Fin 32) (q : Fin 128), y = ix2 p q := ⟨y 0, y 1, eq_ix2 y⟩
  obtain ⟨-, -, -, -, -, -, -, -, -, -, b0, b1⟩ := index_facts t
  have hp : p.val < 32 := p.isLt
  have hq : q.val < 128 := q.isLt
  obtain ⟨r, hr⟩ : ∃ r : Fin 512, r.val = win1_5.index t (0 : Fin 2) * 32 + p.val := ⟨⟨_, by omega⟩, rfl⟩
  obtain ⟨s, hs⟩ : ∃ s : Fin 512, s.val = win1_5.index t (1 : Fin 2) * 128 + q.val := ⟨⟨_, by omega⟩, rfl⟩
  show k1_pay1 (F := Ideal) (iblk1 V c 0 t) (iblk1 V c 1 t) (iblk1 V c 2 t) (iblk1 V c 3 t) (iblk1 V c 4 t) (ix2 p q)
      = Cert.Spec.pair (V c main_v4_0) (V c main_v4_1) (V c main_v2) (V c main_arg4) (V c main_v3)
          (((cfg1.win 5).blk t).view.emb (ix2 p q))
  rw [emb_out t p q r s hr hs, pair_apply]
  refine (Pay.k1_pay1_apply _ _ _ _ _ p q).trans ?_
  rw [read_b2]
  refine congrArg (· + _) (Finset.sum_congr rfl fun h _ => ?_)
  rw [read_px V c t p h r hr, read_py V c t q h s hs, read_b1, read_w2]

/-- An index of the output lies in a point's tile iff each coordinate lies in the tile's range. -/
theorem mem_out_blk (t : Fin cfg1.N) (i : S512x512.Idx) :
    i ∈ ((cfg1.win 5).blk t).view.set ↔ ∀ a : Fin 2, win1_5.index t a * S32x128.size a ≤ (i a).val ∧ (i a).val < win1_5.index t a * S32x128.size a + S32x128.size a := by
  show i ∈ ((View.whole main_v5).slice (win1_5.rect t)).set ↔ _
  rw [View.set_slice_whole, Rect.mem_set_unit]
  exact Iff.rfl

/-- The tiles cover the output: entry (a, b) lies in the tile of block (a / 32, b / 128). -/
theorem out_cover (i : S512x512.Idx) :
    ∃ t : Fin cfg1.N, (cfg1.win 5).flush t = true ∧ i ∈ ((cfg1.win 5).blk t).view.set := by
  have hi0 : (i 0).val < 512 := (i 0).isLt
  have hi1 : (i 1).val < 512 := (i 1).isLt
  obtain ⟨t, ht⟩ := index_onto ⟨(i 0).val / 32, by omega⟩ ⟨(i 1).val / 128, by omega⟩
  have q0 : win1_5.index t (0 : Fin 2) = (i 0).val / 32 := congrFun ht 0
  have q1 : win1_5.index t (1 : Fin 2) = (i 1).val / 128 := congrFun ht 1
  refine ⟨t, flush1_5 t, ?_⟩
  rw [mem_out_blk]
  intro a
  match a with
  | ⟨0, _⟩ => show win1_5.index t (0 : Fin 2) * 32 ≤ (i 0).val ∧ (i 0).val < win1_5.index t (0 : Fin 2) * 32 + 32; omega
  | ⟨1, _⟩ => show win1_5.index t (1 : Fin 2) * 128 ≤ (i 1).val ∧ (i 1).val < win1_5.index t (1 : Fin 2) * 128 + 128; omega

/-- After the region, the output array is the pairwise function of the arrays the region found. -/
theorem out_eq (c : Dev nD) :
    (dat1 (F := Ideal) V c).arrAt 5 cfg1.N
      = Cert.Spec.pair (V c main_v4_0) (V c main_v4_1) (V c main_v2) (V c main_arg4) (V c main_v3) :=
  (dat1 (F := Ideal) V c).arrAt_eq_of_cover 5 _ (fun t _ => out_flushed V c t) out_cover

end Cert.KernelIdeal.Reg1

end
-- ==== Proof.KValue.lean ====
/-
  The idealized kernel's result as one function of its arguments.
  The last boundary's contents at the result buffer are the second region's output array; that array is the
  pairwise function of what the second region found; what it found in the two projection buffers is what the
  first region wrote, the matrix products of x and y with the two row blocks of W1; the bias row, W2 and the
  bias cell pass the first region untouched and are what the host stretch made of b1, W2 and b2.
-/
import proofs.«160549_j86620900426436_1_alg».proof.Proof.KRun
import proofs.«160549_j86620900426436_1_alg».proof.Proof.KHost
import proofs.«160549_j86620900426436_1_alg».proof.Proof.KVal0
import proofs.«160549_j86620900426436_1_alg».proof.Proof.KVal1

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- The first projection buffer, as the second region finds it. -/
theorem found_px (c : Dev nD) :
    V2 (F := Ideal) m ρ c main_v4_0
      = Cert.Spec.mm (m ((c : Thread nD τ).loc main_arg0)) (Cert.Spec.w1lo (m ((c : Thread nD τ).loc main_arg2))) :=
  (W2_arr m ρ c 4).trans ((Cert.KernelIdeal.Reg0.px_eq (V1 m ρ) c).trans (by
    rw [Cert.KernelIdeal.Host.found_x, Cert.KernelIdeal.Host.found_w1lo]))

/-- The second projection buffer, as the second region finds it. -/
theorem found_py (c : Dev nD) :
    V2 (F := Ideal) m ρ c main_v4_1
      = Cert.Spec.mm (m ((c : Thread nD τ).loc main_arg1)) (Cert.Spec.w1hi (m ((c : Thread nD τ).loc main_arg2))) :=
  (W2_arr m ρ c 5).trans ((Cert.KernelIdeal.Reg0.py_eq (V1 m ρ) c).trans (by
    rw [Cert.KernelIdeal.Host.found_y, Cert.KernelIdeal.Host.found_w1hi]))

/-- The bias row passes the first region untouched. -/
theorem found_b1 (c : Dev nD) :
    V2 (F := Ideal) m ρ c main_v2 = Cert.Spec.b1row (m ((c : Thread nD τ).loc main_arg3)) :=
  (W2_of_ne m ρ c main_v2 (by decide)).trans (Cert.KernelIdeal.Host.found_b1 m ρ c)

/-- W2 passes the first region untouched. -/
theorem found_w2 (c : Dev nD) :
    V2 (F := Ideal) m ρ c main_arg4 = m ((c : Thread nD τ).loc main_arg4) :=
  (W2_of_ne m ρ c main_arg4 (by decide)).trans (Cert.KernelIdeal.Host.found_w2 m ρ c)

/-- The bias cell passes the first region untouched. -/
theorem found_b2 (c : Dev nD) :
    V2 (F := Ideal) m ρ c main_v3 = Cert.Spec.b2cell (m ((c : Thread nD τ).loc main_arg5)) :=
  (W2_of_ne m ρ c main_v3 (by decide)).trans (Cert.KernelIdeal.Host.found_b2 m ρ c)

/-- The result buffer at the last boundary is the score function of the launch arguments. -/
theorem result_eq (c : Dev nD) :
    W3 (F := Ideal) m ρ c (Proc.devRef .tc main_v5)
      = Cert.Spec.score (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (W3_arr m ρ c 5).trans ((Cert.KernelIdeal.Reg1.out_eq (V2 m ρ) c).trans ?_)
  rw [found_px, found_py, found_b1, found_w2, found_b2]
  rfl

/-- Every weakly fair execution of the idealized kernel terminates, nothing faulting, with the result buffer at
    the score function of the arguments and the arguments unchanged. -/
theorem run : θ_run defs (onTc (τ := τ) (main (F := Ideal))) ⟨m, fun _ => 0, ρ⟩ (fun r => ∀ c : Dev nD,
      r.2.mem ((c.tc : Thread nD τ).loc main_v5)
        = Cert.Spec.score (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩)
    (Cert.KernelIdeal.KRun.run_named (F := Ideal) m ρ)

end Cert.KernelIdeal.Whole

end
-- ==== Proof.RefSpec.lean ====
/-
  The reference as the same function. Row i·512 + j of the concatenated batch is (x[j], y[i]); its first layer is a
  sum over 256 terms that splits into the x-half and the y-half; relu, the second layer and the bias follow; the
  [262144,1] column is re-laid as [512,512] and transposed, so entry (a, c) comes from row c·512 + a.
-/
import proofs.«160549_j86620900426436_1_alg».proof.Proof.Gen.ReferenceIdeal.Read
import proofs.«160549_j86620900426436_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- A sum over 256 terms is the sum over the first 128 plus the sum over the last 128. -/
theorem sum_halves (f : Fin 256 → EReal) :
    ∑ k : Fin 256, f k
      = (∑ k : Fin 128, f ⟨k.val, by have := k.isLt; omega⟩) + (∑ k : Fin 128, f ⟨128 + k.val, by have := k.isLt; omega⟩) :=
  Fin.sum_univ_add (M := EReal) (a := 128) (b := 128) f

/-- The concatenation along the last axis, at a coordinate below 128, is the first operand there. -/
theorem cat_left (x y : FVec Ideal S512x128 .f32) (p q : Fin 512) (k : Fin 128) :
    val_main_v4 (F := Ideal) x y (ix3 p q (⟨k.val, by have := k.isLt; omega⟩ : Fin 256))
      = val_main_v1 (F := Ideal) x (ix3 p q k) := by
  unfold val_main_v4
  exact concatenate_pair_apply_left (t := S512x512x256) (s₁ := S512x512x128) (s₂ := S512x512x128) 2
    (val_main_v1 (F := Ideal) x) (val_main_v3 (F := Ideal) y) concatenates_S512x512x128_S512x512x128_S512x512x256_d2
    (ix3 p q (⟨k.val, by have := k.isLt; omega⟩ : Fin 256)) rfl (ix3 p q k)
    (fun b => match b with | ⟨0, _⟩ => rfl | ⟨1, _⟩ => rfl | ⟨2, _⟩ => rfl)

/-- The concatenation along the last axis, at a coordinate 128 + k, is the second operand at k. -/
theorem cat_right (x y : FVec Ideal S512x128 .f32) (p q : Fin 512) (k : Fin 128) :
    val_main_v4 (F := Ideal) x y (ix3 p q (⟨128 + k.val, by have := k.isLt; omega⟩ : Fin 256))
      = val_main_v3 (F := Ideal) y (ix3 p q k) := by
  unfold val_main_v4
  exact concatenate_pair_apply_right (t := S512x512x256) (s₁ := S512x512x128) (s₂ := S512x512x128) 2
    (val_main_v1 (F := Ideal) x) (val_main_v3 (F := Ideal) y) concatenates_S512x512x128_S512x512x128_S512x512x256_d2
    (ix3 p q (⟨128 + k.val, by have := k.isLt; omega⟩ : Fin 256)) rfl rfl (ix3 p q k)
    (fun b hb => match b, hb with
      | ⟨0, _⟩, _ => rfl
      | ⟨1, _⟩, _ => rfl
      | ⟨2, _⟩, hb => absurd rfl hb)
    (by show k.val + 128 = 128 + k.val; omega)

/-- Row c·512 + a of the batch of 262144 rows. -/
abbrev row (a c : Fin 512) : Fin 262144 := ⟨c.val * 512 + a.val, by have := a.isLt; have := c.isLt; omega⟩

/-- Row c·512 + a of the batch, in its first 128 columns, is row a of x. -/
theorem pairs_lo (x y : FVec Ideal S512x128 .f32) (a c : Fin 512) (k : Fin 128) :
    val_main_v5 (F := Ideal) x y (ix2 (row a c) (⟨k.val, by have := k.isLt; omega⟩ : Fin 256)) = x (ix2 a k) := by
  have e : idx_main_v5 (ix2 (row a c) (⟨k.val, by have := k.isLt; omega⟩ : Fin 256))
      = ix3 c a (⟨k.val, by have := k.isLt; omega⟩ : Fin 256) :=
    funext fun d => Fin.ext (by
      have ha := a.isLt; have hc := c.isLt; have hk := k.isLt
      match d with
      | ⟨0, _⟩ => show ((c.val * 512 + a.val) * 256 + k.val) / 131072 = c.val; omega
      | ⟨1, _⟩ => show ((c.val * 512 + a.val) * 256 + k.val) / 256 % 512 = a.val; omega
      | ⟨2, _⟩ => show ((c.val * 512 + a.val) * 256 + k.val) % 256 = k.val; omega)
  rw [val_main_v5_apply, e, cat_left, val_main_v1_apply, val_main_v0_apply]
  exact congrArg x (funext fun d => by match d with | ⟨0, _⟩ => rfl | ⟨1, _⟩ => rfl)

/-- Row c·512 + a of the batch, in its last 128 columns, is row c of y. -/
theorem pairs_hi (x y : FVec Ideal S512x128 .f32) (a c : Fin 512) (k : Fin 128) :
    val_main_v5 (F := Ideal) x y (ix2 (row a c) (⟨128 + k.val, by have := k.isLt; omega⟩ : Fin 256)) = y (ix2 c k) := by
  have e : idx_main_v5 (ix2 (row a c) (⟨128 + k.val, by have := k.isLt; omega⟩ : Fin 256))
      = ix3 c a (⟨128 + k.val, by have := k.isLt; omega⟩ : Fin 256) :=
    funext fun d => Fin.ext (by
      have ha := a.isLt; have hc := c.isLt; have hk := k.isLt
      match d with
      | ⟨0, _⟩ => show ((c.val * 512 + a.val) * 256 + (128 + k.val)) / 131072 = c.val; omega
      | ⟨1, _⟩ => show ((c.val * 512 + a.val) * 256 + (128 + k.val)) / 256 % 512 = a.val; omega
      | ⟨2, _⟩ => show ((c.val * 512 + a.val) * 256 + (128 + k.val)) % 256 = 128 + k.val; omega)
  rw [val_main_v5_apply, e, cat_right, val_main_v3_apply, val_main_v2_apply]
  exact congrArg y (funext fun d => by match d with | ⟨0, _⟩ => rfl | ⟨1, _⟩ => rfl)

/-- The first layer at row c·512 + a and column h: the 256 products split into the x-half and the y-half. -/
theorem layer1 (x y : FVec Ideal S512x128 .f32) (W1 : FVec Ideal S256x512 .f32) (a c h : Fin 512) :
    val_main_v6 (F := Ideal) x y W1 (ix2 (row a c) h)
      = (∑ k : Fin 128, x (ix2 a k) * W1 (ix2 (⟨k.val, by have := k.isLt; omega⟩ : Fin 256) h))
        + (∑ k : Fin 128, y (ix2 c k) * W1 (ix2 (⟨128 + k.val, by have := k.isLt; omega⟩ : Fin 256) h)) := by
  have el : ∀ k : Fin 256, lidx_main_v6 (ix2 (row a c) h) k = ix2 (row a c) k := fun k =>
    funext fun d => by match d with | ⟨0, _⟩ => rfl | ⟨1, _⟩ => rfl
  have er : ∀ k : Fin 256, ridx_main_v6 (ix2 (row a c) h) k = ix2 k h := fun k =>
    funext fun d => by match d with | ⟨0, _⟩ => rfl | ⟨1, _⟩ => rfl
  rw [val_main_v6_apply]
  refine (Finset.sum_congr rfl fun k _ => by rw [el k, er k]).trans ?_
  refine (sum_halves fun k => val_main_v5 (F := Ideal) x y (ix2 (row a c) k) * W1 (ix2 k h)).trans ?_
  refine congrArg₂ (· + ·) (Finset.sum_congr rfl fun k _ => ?_) (Finset.sum_congr rfl fun k _ => ?_)
  · exact congrArg (fun t => t * W1 (ix2 (⟨k.val, by have := k.isLt; omega⟩ : Fin 256) h)) (pairs_lo x y a c k)
  · exact congrArg (fun t => t * W1 (ix2 (⟨128 + k.val, by have := k.isLt; omega⟩ : Fin 256) h)) (pairs_hi x y a c k)

/-- The hidden unit h of row c·512 + a: the first layer plus its bias, against zero. -/
theorem hidden (x y : FVec Ideal S512x128 .f32) (W1 : FVec Ideal S256x512 .f32) (b1 : FVec Ideal S512 .f32)
    (a c h : Fin 512) :
    val_main_v10 (F := Ideal) x y W1 b1 (ix2 (row a c) h)
      = max (((∑ k : Fin 128, x (ix2 a k) * W1 (ix2 (⟨k.val, by have := k.isLt; omega⟩ : Fin 256) h))
              + (∑ k : Fin 128, y (ix2 c k) * W1 (ix2 (⟨128 + k.val, by have := k.isLt; omega⟩ : Fin 256) h)))
              + b1 (ix1 h)) (Ideal.ofBits .f32 0x00000000#32) := by
  rw [val_main_v10_apply, val_main_v9_apply, layer1, val_main_v8_apply, val_main_v7_apply, val_main_call0_v0_apply,
    val_main_call0_cst_apply]
  have eb : idx_main_v7 (idx_main_v8 (ix2 (row a c) h)) = ix1 h :=
    funext fun d => by match d with | ⟨0, _⟩ => rfl
  rw [eb]
  rfl

/-- The reference's result, as read operation by operation, is the specification. -/
theorem ref_eq (x y : FVec Ideal S512x128 .f32) (W1 : FVec Ideal S256x512 .f32) (b1 : FVec Ideal S512 .f32)
    (W2 : FVec Ideal S512x1 .f32) (b2 : FVec Ideal S1 .f32) :
    val_main_v16 (F := Ideal) x y W1 b1 W2 b2 = Cert.Spec.score x y W1 b1 W2 b2 := by
  funext j
  obtain ⟨a, c, rfl⟩ : ∃ (a : Fin 512) (c : Fin 512), j = ix2 a c := ⟨j 0, j 1, eq_ix2 j⟩
  -- entry (a, c) of the transposed square is entry (c, a) of the square, which is row c·512 + a of the column
  have e15 : idx_main_v15 (idx_main_v16 (ix2 a c)) = ix2 (row a c) (0 : Fin 1) :=
    funext fun d => Fin.ext (by
      match d with
      | ⟨0, _⟩ => show (c.val * 512 + a.val) / 1 = c.val * 512 + a.val; exact Nat.div_one _
      | ⟨1, _⟩ => rfl)
  have el : ∀ h : Fin 512, lidx_main_v11 (ix2 (row a c) (0 : Fin 1)) h = ix2 (row a c) h := fun h =>
    funext fun d => by match d with | ⟨0, _⟩ => rfl | ⟨1, _⟩ => rfl
  have er : ∀ h : Fin 512, ridx_main_v11 (ix2 (row a c) (0 : Fin 1)) h = ix2 h (0 : Fin 1) := fun h =>
    funext fun d => by match d with | ⟨0, _⟩ => rfl | ⟨1, _⟩ => rfl
  have eb : idx_main_v12 (idx_main_v13 (ix2 (row a c) (0 : Fin 1))) = ix1 (0 : Fin 1) :=
    funext fun d => by match d with | ⟨0, _⟩ => rfl
  rw [Cert.Spec.score_apply, val_main_v16_apply, val_main_v15_apply, e15, val_main_v14_apply, val_main_v11_apply,
    val_main_v13_apply, val_main_v12_apply, eb, Ideal.addf_def]
  refine congrArg₂ (· + ·) (Finset.sum_congr rfl fun h _ => ?_) rfl
  rw [el h, er h, hidden]

end Cert.ReferenceIdeal.RefValue

end
-- ==== Proof.lean ====
/-
  A pairwise two-layer scorer over the extended reals, kernel against reference.

  Inputs x, y : [512,128], W1 : [256,512], b1 : [512], W2 : [512,1], b2 : [1]. For every pair of rows (a, c),
      result[a,c] = Σ_{h<512} max( first(a,c,h), 0 )·W2[h,0] + b2[0],
  where first(a,c,h) is the first layer applied to the concatenated row (x[a,:], y[c,:]) plus b1[h].

  The reference builds all 512·512 concatenated rows, multiplies by W1 in one product over 256 terms, and
  transposes the re-laid scores. The kernel never builds the concatenation: it first forms the two products
  Px = x·W1[0:128,:] and Py = y·W1[128:256,:], then on 32-by-128 tiles of pairs adds Px[a,:] + Py[c,:] + b1,
  takes the maximum with zero and contracts with W2. The two agree because a sum over 256 terms is the sum of
  its two halves; only associativity and commutativity of addition are used, so the inputs' finiteness is never
  opened. Changes of float format are the identity at this instance, and both programs compare with the same
  zero word, which is never evaluated.

  The three frames: the two kernel programs' are the frames over their two regions; the reference's is its run
  with the result dropped. The idealization rewrote nothing, so the preservation claim is the true proposition.
-/
import proofs.«160549_j86620900426436_1_alg».proof.Defs
import proofs.«160549_j86620900426436_1_alg».proof.Proof.Gen.Kernel
import proofs.«160549_j86620900426436_1_alg».proof.Proof.Gen.Kernel.Skeleton
import proofs.«160549_j86620900426436_1_alg».proof.Proof.Gen.Kernel.Launch
import proofs.«160549_j86620900426436_1_alg».proof.Proof.Gen.Kernel.Points
import proofs.«160549_j86620900426436_1_alg».proof.Proof.Gen.Kernel.Frame
import proofs.«160549_j86620900426436_1_alg».proof.Proof.Gen.KernelIdeal
import proofs.«160549_j86620900426436_1_alg».proof.Proof.Gen.KernelIdeal.Skeleton
import proofs.«160549_j86620900426436_1_alg».proof.Proof.Gen.KernelIdeal.Launch
import proofs.«160549_j86620900426436_1_alg».proof.Proof.Gen.KernelIdeal.Points
import proofs.«160549_j86620900426436_1_alg».proof.Proof.Gen.KernelIdeal.Frame
import proofs.«160549_j86620900426436_1_alg».proof.Proof.Gen.ReferenceIdeal
import proofs.«160549_j86620900426436_1_alg».proof.Proof.Gen.Pre_finite_inputs
import proofs.«160549_j86620900426436_1_alg».proof.Proof.Gen.ReferenceIdeal.Run
import proofs.«160549_j86620900426436_1_alg».proof.Proof.Gen.ReferenceIdeal.Read
import proofs.«160549_j86620900426436_1_alg».proof.Proof.KValue
import proofs.«160549_j86620900426436_1_alg».proof.Proof.RefSpec
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the score function of their (agreeing) arguments in the result buffer. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
